-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S512x128 : Shape := ⟨2, ![512, 128]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S2048x512 .f32) (main_arg1 : FVec F S512x128 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S2048x512 : Shape := ⟨2, ![2048, 512]⟩
abbrev S512x128 : Shape := ⟨2, ![512, 128]⟩
abbrev S2048x512x128 : Shape := ⟨3, ![2048, 512, 128]⟩
abbrev S128x512 : Shape := ⟨2, ![128, 512]⟩
abbrev S128x128x128 : Shape := ⟨3, ![128, 128, 128]⟩
abbrev S128x128 : Shape := ⟨2, ![128, 128]⟩
abbrev S128x128x1 : Shape := ⟨3, ![128, 128, 1]⟩
abbrev S128x1x128 : Shape := ⟨3, ![128, 1, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x512x128, .f32⟩
  | .local _ .vmem, ⟨0, _⟩ => ⟨S128x512, .f32⟩
  | .local _ .vmem, ⟨1, _⟩ => ⟨S128x512, .f32⟩
  | .local _ .vmem, ⟨2, _⟩ => ⟨S512x128, .f32⟩
  | .local _ .vmem, ⟨3, _⟩ => ⟨S128x128x128, .f32⟩
  | .local _ .vmem, ⟨4, _⟩ => ⟨S128x128x128, .f32⟩
  | .local _ .vmem, ⟨5, _⟩ => ⟨S128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let c0 : Index := 0#32
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  ![0, v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  inb_S128x128x128_S128x128x128_0_0_0 : ∀ a, (![0, 0, 0] : Fin 3 → Nat) a + S128x128x128.size a ≤ S128x128x128.size a
  h_S128x128x128 : 0 < S128x128x128.numel
  dot_S128x512_S512x128_S128x128_1_0_0_1_n_n_wf : DotDims.WF S128x512 S512x128 S128x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x128.size a ≤ S128x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S2048x512.size a
  hwx0_0 : ∀ i : grid0.Coords, EltTy.bits .f32 = 32 ∨ (Rect.block (s := S2048x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x128.size a ≤ S2048x512x128.size a
  hwx0_2 : ∀ i : grid0.Coords, EltTy.bits .f32 = 32 ∨ (Rect.block (s := S2048x512x128) S128x128x128.size (cc0_transform_2 i) (hinb0_2 i)).WholeWords (EltTy.packing .f32)

variable [Facts₀]

def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x512 : Shape := ⟨2, ![2048, 512]⟩
abbrev S512x128 : Shape := ⟨2, ![512, 128]⟩
abbrev S2048x128 : Shape := ⟨2, ![2048, 128]⟩
abbrev S2048x512x1 : Shape := ⟨3, ![2048, 512, 1]⟩
abbrev S2048x1x128 : Shape := ⟨3, ![2048, 1, 128]⟩
abbrev S2048x512x128 : Shape := ⟨3, ![2048, 512, 128]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x128, .f32⟩
  | .hbm, ⟨3, _⟩ => ⟨S2048x512x1, .f32⟩
  | .hbm, ⟨4, _⟩ => ⟨S2048x1x128, .f32⟩
  | .hbm, ⟨5, _⟩ => ⟨S2048x512x128, .f32⟩
  | .hbm, ⟨6, _⟩ => ⟨S2048x512x128, .f32⟩
  | .hbm, ⟨7, _⟩ => ⟨S2048x512x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S2048x512_S2048x512x1_0_1 : S2048x512.BroadcastsInDim S2048x512x1 (![0, 1] : Fin 2 → Fin S2048x512x1.rank)
  bcast_S2048x128_S2048x1x128_0_2 : S2048x128.BroadcastsInDim S2048x1x128 (![0, 2] : Fin 2 → Fin S2048x1x128.rank)
  bcast_S2048x512x1_S2048x512x128_0_1_2 : S2048x512x1.BroadcastsInDim S2048x512x128 (![0, 1, 2] : Fin 3 → Fin S2048x512x128.rank)
  bcast_S2048x1x128_S2048x512x128_0_1_2 : S2048x1x128.BroadcastsInDim S2048x512x128 (![0, 1, 2] : Fin 3 → Fin S2048x512x128.rank)
  dot_S2048x512_S512x128_S2048x128_1_0_0_1_n_n_wf : DotDims.WF S2048x512 S512x128 S2048x128 [1] [0] [0] [1] [] []

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

class Facts : Prop extends Facts₀ where

variable [Facts]
-- ==== Proof.Pieces.lean ====
/-
  What one run of the kernel body leaves behind, as pure functions of what it loaded.
  The body has two cases. At the first point of a row tile (second grid coordinate 0) it first stores the row tile's
  product with the weight block, `k0_pay1 x0 x1`, into the carried scratch, then reads it back; at the other points the
  scratch still holds what the point before left. In both cases the output block is `k0_pay2` of the 128 columns of the
  row tile that the second grid coordinate selects and of the scratch.
-/
import proofs.«153718_j24240795419358_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.ScaledRows.Ker

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The 128 columns of a [128, 512] row tile that the point's second grid coordinate selects (columns 128·g … 128·g + 127):
    what the body's offset load reads of the tile. -/
def colTile (i : grid0.Coords) (x0 : Vec F S128x512 .f32) : Vec F S128x128 .f32 :=
  View.ld x0 (Rect.unit (s := S128x512) (k0_off1 i) S128x128.size (k0_off1_inb i))

/-- First point of a row tile: the scratch ends holding the tile's product with the weight block. -/
theorem scratch_first (c : Dev nD) (i : grid0.Coords) (arg2 : Memref sig .tc .vmem S128x512 .f32) (harg2 : arg2.IsWhole) (arg3 : Memref sig .tc .vmem S512x128 .f32) (harg3 : arg3.IsWhole) (arg4 : Memref sig .tc .vmem S128x128x128 .f32) (harg4 : arg4.IsWhole) (arg5 : Memref sig .tc .vmem S128x128 .f32) (harg5 : arg5.IsWhole) (hc0 : cond0_0 i)
    (x0 : Vec F S128x512 .f32) (x1 : Vec F S512x128 .f32) :
    sout0_A_0 c i arg2 harg2 arg3 harg3 arg4 harg4 arg5 harg5 hc0 x0 x1 = k0_pay1 x0 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero zero2]
  simp only [View.readAt_eq_ld, harg2.read_unread, harg3.read_unread, View.ld_unit_zero (S := S128x512) zero2,
    View.ld_unit_zero (S := S512x128) zero2]

/-- First point of a row tile: the output block is the outer scaling of the selected columns by the product just stored
    (the body reads the scratch back after storing it). -/
theorem out_first (c : Dev nD) (i : grid0.Coords) (arg2 : Memref sig .tc .vmem S128x512 .f32) (harg2 : arg2.IsWhole) (arg3 : Memref sig .tc .vmem S512x128 .f32) (harg3 : arg3.IsWhole) (arg4 : Memref sig .tc .vmem S128x128x128 .f32) (harg4 : arg4.IsWhole) (arg5 : Memref sig .tc .vmem S128x128 .f32) (harg5 : arg5.IsWhole) (hc0 : cond0_0 i)
    (x0 : Vec F S128x512 .f32) (x1 : Vec F S512x128 .f32) :
    out0_A_2 c i arg2 harg2 arg3 harg3 arg4 harg4 arg5 harg5 hc0 x0 x1 = k0_pay2 (colTile i x0) (k0_pay1 x0 x1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero zero3]
  simp only [View.readAt_eq_ld, harg2.read_unread, harg3.read_unread, View.ld_unit_zero (S := S128x512) zero2,
    View.ld_unit_zero (S := S512x128) zero2, View.readCov_unit_zero (S := S128x128) _ zero2]
  rfl

/-- Any other point: the output block is the outer scaling of the selected columns by what the scratch held. -/
theorem out_later (c : Dev nD) (i : grid0.Coords) (arg2 : Memref sig .tc .vmem S128x512 .f32) (harg2 : arg2.IsWhole) (arg3 : Memref sig .tc .vmem S512x128 .f32) (harg3 : arg3.IsWhole) (arg4 : Memref sig .tc .vmem S128x128x128 .f32) (harg4 : arg4.IsWhole) (arg5 : Memref sig .tc .vmem S128x128 .f32) (harg5 : arg5.IsWhole) (hc0 : ¬cond0_0 i)
    (x0 : Vec F S128x512 .f32) (x1 : Vec F S512x128 .f32) (xs0 : Vec F S128x128 .f32) :
    out0_B_2 c i arg2 harg2 arg3 harg3 arg4 harg4 arg5 harg5 hc0 x0 x1 xs0 = k0_pay2 (colTile i x0) xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero zero3]
  simp only [View.readAt_eq_ld, harg2.read_unread, harg5.read_unread, View.ld_unit_zero (S := S128x128) zero2]
  rfl

end Cert.ScaledRows.Ker

end
-- ==== Proof.Blocks.lean ====
/-
  Where the windows' blocks sit in their arrays.
  The grid has 16 × 4 = 64 points; point t works on row tile t / 4 (rows 128·(t/4) … +127 of the 2048) and column tile
  t % 4 (columns 128·(t%4) … +127 of the 512). The density window hands the body the whole [128, 512] row tile, the
  weight window the whole [512, 128] array, and the output window the [128, 128, 128] block at (t / 4, t % 4, 0).
-/
import proofs.«153718_j24240795419358_1_alg».proof.Proof.Pieces
import Idealize.ShloMosaic.Lib.ValueIdx

noncomputable section

open Idealize.ShloMosaic Idealize.ShloMosaic.TcCoe Idealize.SL.Sem

namespace Cert.ScaledRows.Ker

open Cert.KernelIdeal Cert.KernelIdeal.Gen Idealize.ShloMosaic.ValueIdx

variable {F : FTy → Type} [FloatOps F]
variable (m : (ℓ : Loc nD τ sig) → Buf (Elt F) ℓ)

/-- The printed index maps and the body's load offset, decided once over the 64 points. -/
theorem grid_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0
    ∧ k0_off1 (grid0.coords t) (0 : Fin 2) = 0 ∧ k0_off1 (grid0.coords t) (1 : Fin 2) = 128 * (t.val % 4) :=
  (by decide +kernel : ∀ t : Fin grid0.N, _)

theorem lt64 (t : Fin cfg0.N) : t.val < 64 := lt_of_lt_of_eq t.isLt N_0

/-- Row `p` of point `t`'s row tile, as a row of the whole array. -/
def rowAt (t : Fin cfg0.N) (p : Fin 128) : Fin 2048 := ⟨128 * (t.val / 4) + p.val, by have := lt64 t; omega⟩
/-- Column `q` of point `t`'s column tile, as a column of the whole array. -/
def colAt (t : Fin cfg0.N) (q : Fin 128) : Fin 512 := ⟨128 * (t.val % 4) + q.val, by omega⟩

/-- The density window's block at point `t` is row tile `t / 4`, all 512 columns. -/
theorem dblk_apply (c : Dev nD) (t : Fin cfg0.N) (p : Fin 128) (j : Fin 512) :
    (iblk m c 0 t : Vec F S128x512 .f32) (ix2 p j) = m ((c : Thread nD τ).loc main_arg0) (ix2 (rowAt t p) j) := by
  obtain ⟨e0, e1, -⟩ := grid_facts t
  show V m c main_arg0 (((cfg0.win 0).blk t).view.emb (ix2 p j)) = _
  refine congrArg (m ((c : Thread nD τ).loc main_arg0)) (funext fun a => Fin.ext ?_)
  match a with
  | ⟨0, _⟩ => show win0_0.index t (0 : Fin 2) * 128 + 1 * p.val = 128 * (t.val / 4) + p.val; omega
  | ⟨1, _⟩ => show win0_0.index t (1 : Fin 2) * 512 + 1 * j.val = j.val; omega

/-- The weight window's block is the whole weight array at every point. -/
theorem wblk_apply (c : Dev nD) (t : Fin cfg0.N) (j : Fin 512) (k : Fin 128) :
    (iblk m c 1 t : Vec F S512x128 .f32) (ix2 j k) = m ((c : Thread nD τ).loc main_arg1) (ix2 j k) := by
  obtain ⟨-, -, e0, e1, -⟩ := grid_facts t
  show V m c main_arg1 (((cfg0.win 1).blk t).view.emb (ix2 j k)) = _
  refine congrArg (m ((c : Thread nD τ).loc main_arg1)) (funext fun a => Fin.ext ?_)
  match a with
  | ⟨0, _⟩ => show win0_1.index t (0 : Fin 2) * 512 + 1 * j.val = j.val; omega
  | ⟨1, _⟩ => show win0_1.index t (1 : Fin 2) * 128 + 1 * k.val = k.val; omega

/-- The body's offset load at point `t` reads columns 128·(t % 4) … of the row tile. -/
theorem colTile_apply (t : Fin cfg0.N) (x0 : Vec F S128x512 .f32) (p q : Fin 128) :
    colTile (grid0.coords t) x0 (ix2 p q) = x0 (ix2 p (colAt t q)) := by
  obtain ⟨-, -, -, -, -, -, -, o0, o1⟩ := grid_facts t
  unfold colTile
  show x0 ((Rect.unit (s := S128x512) (k0_off1 (grid0.coords t)) S128x128.size (k0_off1_inb (grid0.coords t))).idx (ix2 p q)) = _
  refine congrArg x0 (funext fun a => Fin.ext ?_)
  match a with
  | ⟨0, _⟩ => show k0_off1 (grid0.coords t) (0 : Fin 2) + 1 * p.val = p.val; omega
  | ⟨1, _⟩ => show k0_off1 (grid0.coords t) (1 : Fin 2) + 1 * q.val = 128 * (t.val % 4) + q.val; omega

end Cert.ScaledRows.Ker

end
-- ==== Proof.PayloadAt.lean ====
/-
  The body's two payloads read at one element, over the extended reals.
  `k0_pay1` is the block matrix product into a zero accumulator (the change of format to bf16 is the identity at the
  ideal instance): at (p, k) it is Σ_j x0[p, j] · x1[j, k].
  `k0_pay2` multiplies two broadcasts: at (p, q, k) it is v6[p, q] · v7[p, k].
-/
import proofs.«153718_j24240795419358_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic

namespace Cert.ScaledRows.Ker

open Cert.KernelIdeal Cert.KernelIdeal.Gen Idealize.ShloMosaic.ValueIdx

/-! ### The block product's operand indices, axis by axis -/

theorem dotL_row (y : S128x128.Idx) (q : dot_S128x512_S512x128_S128x128_1_0_0_1_n_n.contr.Idx) :
    (dot_S128x512_S512x128_S128x128_1_0_0_1_n_n.lhsIdx y q 0).val = (y 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl
theorem dotL_col (y : S128x128.Idx) (q : dot_S128x512_S512x128_S128x128_1_0_0_1_n_n.contr.Idx) :
    (dot_S128x512_S512x128_S128x128_1_0_0_1_n_n.lhsIdx y q 1).val = (q ⟨0, by decide⟩).val :=
  dot_S128x512_S512x128_S128x128_1_0_0_1_n_n.lhsIdx_val_of_single rfl y q
theorem dotR_row (y : S128x128.Idx) (q : dot_S128x512_S512x128_S128x128_1_0_0_1_n_n.contr.Idx) :
    (dot_S128x512_S512x128_S128x128_1_0_0_1_n_n.rhsIdx y q 0).val = (q ⟨0, by decide⟩).val :=
  dot_S128x512_S512x128_S128x128_1_0_0_1_n_n.rhsIdx_val_of_single rfl y q
theorem dotR_col (y : S128x128.Idx) (q : dot_S128x512_S512x128_S128x128_1_0_0_1_n_n.contr.Idx) :
    (dot_S128x512_S512x128_S128x128_1_0_0_1_n_n.rhsIdx y q 1).val = (y 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

/-- The block product at (p, k): the sum over the 512 contracted columns. -/
theorem pay1_apply (x0 : Vec Ideal S128x512 .f32) (x1 : Vec Ideal S512x128 .f32) (p k : Fin 128) :
    k0_pay1 (F := Ideal) x0 x1 (ix2 p k) = ∑ j : Fin 512, x0 (ix2 p j) * x1 (ix2 j k) := by
  unfold k0_pay1
  rw [shapeCast_self]
  refine (Ideal.matmul_constant_zero_apply dot_S128x512_S512x128_S128x128_1_0_0_1_n_n none _ _ (ix2 p k)).trans ?_
  rw [← Equiv.sum_comp (contrEquiv1 dot_S128x512_S512x128_S128x128_1_0_0_1_n_n 512 rfl rfl).symm]
  refine Finset.sum_congr rfl fun j _ => ?_
  have hk := contrEquiv1_symm_val dot_S128x512_S512x128_S128x128_1_0_0_1_n_n 512 rfl rfl j
  have el : dot_S128x512_S512x128_S128x128_1_0_0_1_n_n.lhsIdx (ix2 p k) ((contrEquiv1 dot_S128x512_S512x128_S128x128_1_0_0_1_n_n 512 rfl rfl).symm j) = ix2 p j := funext fun a => Fin.ext (by
    match a with
    | ⟨0, _⟩ => exact dotL_row _ _
    | ⟨1, _⟩ => exact (dotL_col _ _).trans hk)
  have er : dot_S128x512_S512x128_S128x128_1_0_0_1_n_n.rhsIdx (ix2 p k) ((contrEquiv1 dot_S128x512_S512x128_S128x128_1_0_0_1_n_n 512 rfl rfl).symm j) = ix2 j k := funext fun a => Fin.ext (by
    match a with
    | ⟨0, _⟩ => exact (dotR_row _ _).trans hk
    | ⟨1, _⟩ => exact dotR_col _ _)
  rw [el, er]
  rfl

/-- The outer scaling at (p, q, k): the left operand at (p, q) times the right at (p, k). -/
theorem pay2_apply (v6 v7 : Vec Ideal S128x128 .f32) (p q k : Fin 128) :
    k0_pay2 (F := Ideal) v6 v7 (ix3 p q k) = v6 (ix2 p q) * v7 (ix2 p k) := by
  unfold k0_pay2
  rw [mulf_apply]
  congr 1
  · rw [broadcastTo_apply _ broadcasts_S128x128x1_S128x128x128 (ix3 p q k) (ix3 p q (0 : Fin 1)) (fun a => by
      match a with
      | ⟨0, _⟩ => show p.val = if (128 : Nat) = 1 then 0 else p.val; rw [if_neg (by decide)]
      | ⟨1, _⟩ => show q.val = if (128 : Nat) = 1 then 0 else q.val; rw [if_neg (by decide)]
      | ⟨2, _⟩ => show 0 = if (1 : Nat) = 1 then 0 else k.val; rw [if_pos rfl])]
    exact shapeCast_apply v6 shapeCasts_S128x128_S128x128x1 (ix3 p q (0 : Fin 1)) (ix2 p q) (by
      rw [Shape.rowMajor_val_three, Shape.rowMajor_val_two]
      show p.val * 128 + q.val = (p.val * 128 + q.val) * 1 + 0
      omega)
  · rw [broadcastTo_apply _ broadcasts_S128x1x128_S128x128x128 (ix3 p q k) (ix3 p (0 : Fin 1) k) (fun a => by
      match a with
      | ⟨0, _⟩ => show p.val = if (128 : Nat) = 1 then 0 else p.val; rw [if_neg (by decide)]
      | ⟨1, _⟩ => show 0 = if (1 : Nat) = 1 then 0 else q.val; rw [if_pos rfl]
      | ⟨2, _⟩ => show k.val = if (128 : Nat) = 1 then 0 else k.val; rw [if_neg (by decide)])]
    exact shapeCast_apply v7 shapeCasts_S128x128_S128x1x128 (ix3 p (0 : Fin 1) k) (ix2 p k) (by
      rw [Shape.rowMajor_val_three, Shape.rowMajor_val_two]
      show p.val * 128 + k.val = (p.val * 1 + 0) * 128 + k.val
      omega)

end Cert.ScaledRows.Ker

end
-- ==== Proof.Spec.lean ====
/-
  The function both programs compute, index by index, over the extended reals:
    out[n, i, k] = d[n, i] · Σ_j d[n, j] · W[j, k]
  for d : [2048, 512] and W : [512, 128] — row n of d scaled, entry by entry, by that row's product with column k of W.
  The inner sum depends on (n, k) only, so it can be computed once per row tile and reused for every i: that is what the
  kernel does, and why both sides are the SAME expression (no distributivity, hence no finiteness, is needed).
-/
import Idealize.ShloMosaic.PureOps.Ideal
import Idealize.ShloMosaic.Lib.ValueIdx

noncomputable section

open scoped BigOperators

namespace Cert.ScaledRows

open Idealize.ShloMosaic Idealize.ShloMosaic.ValueIdx

/-- Row `n` of `d` against column `k` of `w`: Σ_j d[n, j] · w[j, k]. -/
def rowDot (d : (⟨2, ![2048, 512]⟩ : Shape).Idx → EReal) (w : (⟨2, ![512, 128]⟩ : Shape).Idx → EReal)
    (n : Fin 2048) (k : Fin 128) : EReal :=
  ∑ j : Fin 512, d (ix2 n j) * w (ix2 j k)

/-- The result array: out[n, i, k] = d[n, i] · rowDot d w n k. -/
def scaled (d : (⟨2, ![2048, 512]⟩ : Shape).Idx → EReal) (w : (⟨2, ![512, 128]⟩ : Shape).Idx → EReal) :
    (⟨3, ![2048, 512, 128]⟩ : Shape).Idx → EReal :=
  fun y => d (ix2 (y 0) (y 1)) * rowDot d w (y 0) (y 2)

theorem scaled_apply (d : (⟨2, ![2048, 512]⟩ : Shape).Idx → EReal) (w : (⟨2, ![512, 128]⟩ : Shape).Idx → EReal)
    (n : Fin 2048) (i : Fin 512) (k : Fin 128) :
    scaled d w (ix3 n i k) = d (ix2 n i) * rowDot d w n k := rfl

end Cert.ScaledRows

end
-- ==== Proof.KernelValue.lean ====
/-
  The kernel's result array, index by index, at the ideal instance.
  The carried scratch is an invariant of the run: after every point t it holds, at (p, k), the dot product of row
  128·(t/4) + p of the densities with column k of the weights — stored at the first point of each row tile and left
  alone by the three points after it, which work on the same rows. Every point's output block is then the outer scaling
  of the selected columns of the row tile by the scratch, which is the specification read through the output block; the
  64 blocks tile the [2048, 512, 128] array.
-/
import proofs.«153718_j24240795419358_1_alg».proof.Proof.Gen.KernelIdeal.Value
import proofs.«153718_j24240795419358_1_alg».proof.Proof.Blocks
import proofs.«153718_j24240795419358_1_alg».proof.Proof.PayloadAt
import proofs.«153718_j24240795419358_1_alg».proof.Proof.Spec

noncomputable section

open scoped BigOperators
open Idealize.ShloMosaic Idealize.ShloMosaic.TcCoe Idealize.SL.Sem
open Idealize.ShloMosaic.Pipeline (Dat)

namespace Cert.ScaledRows.Ker

open Cert.KernelIdeal Cert.KernelIdeal.Gen Cert.KernelIdeal.Value Idealize.ShloMosaic.ValueIdx Cert.ScaledRows

variable (m : (ℓ : Loc nD τ sig) → Buf (Elt Ideal) ℓ) (ρ : Dev nD → PrngReg)

/-- The two argument arrays on core `c`, and the input blocks at point `t`, at their literal types. -/
abbrev dens (c : Dev nD) : Vec Ideal S2048x512 .f32 := m ((c : Thread nD τ).loc main_arg0)
abbrev wts (c : Dev nD) : Vec Ideal S512x128 .f32 := m ((c : Thread nD τ).loc main_arg1)
abbrev dblk (c : Dev nD) (t : Fin cfg0.N) : Vec Ideal S128x512 .f32 := iblk m c 0 t
abbrev wblk (c : Dev nD) (t : Fin cfg0.N) : Vec Ideal S512x128 .f32 := iblk m c 1 t

/-- The product of point `t`'s row tile with the weight block holds the rows' dot products. -/
theorem tileProduct_apply (c : Dev nD) (t : Fin cfg0.N) (p k : Fin 128) :
    k0_pay1 (F := Ideal) (dblk m c t) (wblk m c t) (ix2 p k) = rowDot (dens m c) (wts m c) (rowAt t p) k := by
  refine (pay1_apply (dblk m c t) (wblk m c t) p k).trans ?_
  unfold rowDot
  exact Finset.sum_congr rfl fun j _ => congrArg₂ (· * ·) (dblk_apply m c t p j) (wblk_apply m c t j k)

/-- At the first point of a row tile the scratch is that product. -/
theorem scratch_at_first (c : Dev nD) (t : Fin cfg0.N) (h0 : t.val % 4 = 0) :
    (outsAt0 m c t.val t.isLt).2 = k0_pay1 (F := Ideal) (dblk m c t) (wblk m c t) := by
  rw [outsAt0_A m c t h0]
  dsimp only
  exact scratch_first (F := Ideal) c (grid0.coords t) (ms0_0 t) (hs0_0 t) (ms0_1 t) (hs0_1 t) (ms0_2 t) (hs0_2 t) scM0_0 (Memref.isWhole_whole _) ((hcond0_0 t).mpr h0) (dblk m c t) (wblk m c t)

/-- At any other point the scratch is what the point before left. -/
theorem scratch_at_later (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- THE INVARIANT: after point `n` the scratch holds the dot products of the rows of row tile `n / 4`. -/
theorem scratch_inv (c : Dev nD) : ∀ (n : ℕ) (hn : n < cfg0.N) (p k : Fin 128),
    (outsAt0 m c n hn).2 (ix2 p k) = rowDot (dens m c) (wts m c) (rowAt ⟨n, hn⟩ p) k := by
  intro n
  induction n with
  | zero =>
    intro hn p k
    rw [scratch_at_first m c ⟨0, hn⟩ rfl]
    exact tileProduct_apply m c ⟨0, hn⟩ p k
  | succ n ih =>
    intro hn p k
    by_cases h0 : (n + 1) % 4 = 0
    · rw [scratch_at_first m c ⟨n + 1, hn⟩ h0]
      exact tileProduct_apply m c ⟨n + 1, hn⟩ p k
    · rw [scratch_at_later m c ⟨n + 1, hn⟩ h0]
      refine (ih (Nat.lt_of_succ_lt hn) p k).trans ?_
      have e : rowAt ⟨n, Nat.lt_of_succ_lt hn⟩ p = rowAt ⟨n + 1, hn⟩ p := Fin.ext (by
        show 128 * (n / 4) + p.val = 128 * ((n + 1) / 4) + p.val
        have : n / 4 = (n + 1) / 4 := by omega
        omega)
      rw [e]

/-- Every point's output block: the selected columns of the row tile scaled by a scratch that holds the row tile's
    dot products. -/
theorem out_block (c : Dev nD) (t : Fin cfg0.N) :
    ∃ S : Vec Ideal S128x128 .f32,
      (outsAt0 m c t.val t.isLt).1 = k0_pay2 (F := Ideal) (colTile (grid0.coords t) (dblk m c t)) S
      ∧ ∀ p k : Fin 128, S (ix2 p k) = rowDot (dens m c) (wts m c) (rowAt t p) k := by
  by_cases h0 : t.val % 4 = 0
  · refine ⟨k0_pay1 (F := Ideal) (dblk m c t) (wblk m c t), ?_, tileProduct_apply m c t⟩
    rw [outsAt0_A m c t h0]
    dsimp only
    exact out_first (F := Ideal) c (grid0.coords t) (ms0_0 t) (hs0_0 t) (ms0_1 t) (hs0_1 t) (ms0_2 t) (hs0_2 t) scM0_0 (Memref.isWhole_whole _) ((hcond0_0 t).mpr h0) (dblk m c t) (wblk m c t)
  · refine ⟨(outsAt0 m c (t.val - 1) (Nat.lt_of_le_of_lt (Nat.sub_le _ _) t.isLt)).2, ?_, fun p k => ?_⟩
    · rw [outsAt0_B m c t h0]
      dsimp only
      exact out_later (F := Ideal) c (grid0.coords t) (ms0_0 t) (hs0_0 t) (ms0_1 t) (hs0_1 t) (ms0_2 t) (hs0_2 t) scM0_0 (Memref.isWhole_whole _) (fun h => h0 ((hcond0_0 t).mp h)) (dblk m c t) (wblk m c t) _
    · refine (scratch_inv m c (t.val - 1) _ p k).trans ?_
      have e : rowAt ⟨t.val - 1, Nat.lt_of_le_of_lt (Nat.sub_le _ _) t.isLt⟩ p = rowAt t p := Fin.ext (by
        show 128 * ((t.val - 1) / 4) + p.val = 128 * (t.val / 4) + p.val
        have : (t.val - 1) / 4 = t.val / 4 := by omega
        omega)
      rw [e]

/-- One element of such a block is the specification at the element's place in the array. -/
theorem block_apply (c : Dev nD) (t : Fin cfg0.N) (S : Vec Ideal S128x128 .f32)
    (hS : ∀ p k : Fin 128, S (ix2 p k) = rowDot (dens m c) (wts m c) (rowAt t p) k) (p q k : Fin 128) :
    k0_pay2 (F := Ideal) (colTile (grid0.coords t) (dblk m c t)) S (ix3 p q k)
      = scaled (dens m c) (wts m c) (ix3 (rowAt t p) (colAt t q) k) := by
  rw [pay2_apply, scaled_apply, hS p k]
  refine congrArg (· * _) ?_
  exact (colTile_apply t (dblk m c t) p q).trans (dblk_apply m c t p (colAt t q))

/-- WHAT POINT `t` WRITES BACK is block `t` of the specification. -/
theorem flushed_eq (c : Dev nD) (t : Fin cfg0.N) :
    (dats m 0 c).flushed 2 t = ((cfg0.win 2).blk t).view.read (Elt Ideal) (scaled (dens m c) (wts m c)) := by
  obtain ⟨S, hout, hS⟩ := out_block m c t
  obtain ⟨-, -, -, -, e0, e1, e2, -⟩ := grid_facts t
  rw [flushed2, hout]
  funext y
  show k0_pay2 (F := Ideal) (colTile (grid0.coords t) (dblk m c t)) S y = scaled (dens m c) (wts m c) (((cfg0.win 2).blk t).view.emb y)
  obtain ⟨p, q, k, rfl⟩ : ∃ (p q k : Fin 128), y = ix3 p q k := ⟨y 0, y 1, y 2, eq_ix3 y⟩
  refine (block_apply m c t S hS p q k).trans (congrArg (scaled (dens m c) (wts m c)) (funext fun a => Fin.ext ?_))
  match a with
  | ⟨0, _⟩ => show 128 * (t.val / 4) + p.val = win0_2.index t (0 : Fin 3) * 128 + 1 * p.val; omega
  | ⟨1, _⟩ => show 128 * (t.val % 4) + q.val = win0_2.index t (1 : Fin 3) * 128 + 1 * q.val; omega
  | ⟨2, _⟩ => show k.val = win0_2.index t (2 : Fin 3) * 128 + 1 * k.val; omega

/-- An index of the array is in point `t`'s block iff each coordinate is in the block's range on its axis. -/
theorem mem_blk (t : Fin cfg0.N) (i : S2048x512x128.Idx) :
    i ∈ ((cfg0.win 2).blk t).view.set ↔ ∀ a : Fin 3, win0_2.index t a * S128x128x128.size a ≤ (i a).val ∧ (i a).val < win0_2.index t a * S128x128x128.size a + S128x128x128.size a := by
  show i ∈ ((View.whole main_v0).slice (win0_2.rect t)).set ↔ _
  rw [View.set_slice_whole, Rect.mem_set_unit]
  exact Iff.rfl

/-- Every index of the array is in the block of the point (row / 128, column / 128). -/
theorem covered (i : S2048x512x128.Idx) :
    ∃ t : Fin cfg0.N, (cfg0.win 2).flush t = true ∧ i ∈ ((cfg0.win 2).blk t).view.set := by
  have hi0 : (i 0).val < 2048 := (i 0).isLt
  have hi1 : (i 1).val < 512 := (i 1).isLt
  have hi2 : (i 2).val < 128 := (i 2).isLt
  have hN : cfg0.N = 64 := N_0
  let t : Fin cfg0.N := ⟨4 * ((i 0).val / 128) + (i 1).val / 128, by omega⟩
  have ht : t.val = 4 * ((i 0).val / 128) + (i 1).val / 128 := rfl
  obtain ⟨-, -, -, -, e0, e1, e2, -⟩ := grid_facts t
  refine ⟨t, flush0_2 t, ?_⟩
  rw [mem_blk]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 128 ≤ (i 1).val ∧ (i 1).val < win0_2.index t (1 : Fin 3) * 128 + 128; omega
  | ⟨2, _⟩ => show win0_2.index t (2 : Fin 3) * 128 ≤ (i 2).val ∧ (i 2).val < win0_2.index t (2 : Fin 3) * 128 + 128; omega

/-- THE RESULT ARRAY after the run is the specification. -/
theorem final (c : Dev nD) : (dats m 0 c).arrAt 2 cfg0.N = scaled (dens m c) (wts m c) :=
  (dats m 0 c).arrAt_eq_of_cover 2 (scaled (dens m c) (wts m c)) (fun t _ => flushed_eq m c t) covered

/-- The run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v0) = scaled (dens m c) (wts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.ScaledRows.Ker

end
-- ==== Proof.RefIsSpec.lean ====
/-
  The reference, read one stage at a time at an index (n, i, k), is the specification:
  the product of the two broadcasts reads d at (n, i) on the left and the host's dot_general at (n, k) on the right,
  and at the ideal instance that dot_general is the plain sum Σ_j d[n, j] · W[j, k].
-/
import proofs.«153718_j24240795419358_1_alg».proof.Proof.Gen.ReferenceIdeal.Read
import proofs.«153718_j24240795419358_1_alg».proof.Proof.Spec

noncomputable section

open scoped BigOperators

namespace Cert.ScaledRows.Ref

open Cert.ReferenceIdeal Cert.ReferenceIdeal.Read Idealize.ShloMosaic Idealize.ShloMosaic.ValueIdx

/-- Through the two broadcasts of the left factor the index (n, i, k) reads d at (n, i). -/
theorem left_idx (y : S2048x512x128.Idx) : idx_main_v1 (idx_main_v3 y) = ix2 (y 0) (y 1) :=
  funext fun a => Fin.ext (by match a with | ⟨0, _⟩ => rfl | ⟨1, _⟩ => rfl)

/-- Through the two broadcasts of the right factor the index (n, i, k) reads the row products at (n, k); the
    contraction's left operand index at j is then (n, j) … -/
theorem dot_lidx (y : S2048x512x128.Idx) (j : Fin 512) :
    lidx_main_v0 (idx_main_v2 (idx_main_v4 y)) j = ix2 (y 0) j :=
  funext fun a => Fin.ext (by match a with | ⟨0, _⟩ => rfl | ⟨1, _⟩ => rfl)

/-- … and its right operand index is (j, k). -/
theorem dot_ridx (y : S2048x512x128.Idx) (j : Fin 512) :
    ridx_main_v0 (idx_main_v2 (idx_main_v4 y)) j = ix2 j (y 2) :=
  funext fun a => Fin.ext (by match a with | ⟨0, _⟩ => rfl | ⟨1, _⟩ => rfl)

/-- The reference's last stage is the specification, as arrays. -/
theorem ref_eq (d : (⟨S2048x512, .f32⟩ : BufTy).Contents (Elt Ideal)) (w : (⟨S512x128, .f32⟩ : BufTy).Contents (Elt Ideal)) :
    val_main_v5 (F := Ideal) d w = scaled d w := by
  funext y
  rw [val_main_v5_apply, val_main_v3_apply, val_main_v1_apply, val_main_v4_apply, val_main_v2_apply, val_main_v0_apply]
  simp only [left_idx, dot_lidx, dot_ridx]
  rfl

end Cert.ScaledRows.Ref

end
-- ==== Proof.lean ====
/-
  The certificate of the row-scaling kernel against its reference:
      out[n, i, k] = d[n, i] · Σ_j d[n, j] · W[j, k]        (d : [2048, 512], W : [512, 128]).
  The kernel computes the inner sums once per tile of 128 rows (a block matrix product kept in a scratch buffer across
  the four column tiles of that row tile) and scales the row tile's columns by them; the reference computes the whole
  matrix product d · W on the host and multiplies two broadcasts. Over the extended reals both are the same expression
  at every index — the same sum of the same products in the same order — so no algebraic law beyond reading each side
  at an index is needed, and the finiteness precondition is never opened.

  The frames: the kernel's two frames are the generated frame runs; the reference's is its run with the result dropped.
  The idealization rewrote nothing, so there is nothing to preserve. The value claim sets the kernel's run, its result
  array read as the specification (Proof/KernelValue.lean), beside the reference's run, its last stage read as the
  specification (Proof/RefIsSpec.lean).
-/
import proofs.«153718_j24240795419358_1_alg».proof.Defs
import proofs.«153718_j24240795419358_1_alg».proof.Proof.Gen.Kernel
import proofs.«153718_j24240795419358_1_alg».proof.Proof.Gen.Kernel.Skeleton
import proofs.«153718_j24240795419358_1_alg».proof.Proof.Gen.Kernel.Launch
import proofs.«153718_j24240795419358_1_alg».proof.Proof.Gen.Kernel.Points
import proofs.«153718_j24240795419358_1_alg».proof.Proof.Gen.Kernel.Frame
import proofs.«153718_j24240795419358_1_alg».proof.Proof.Gen.KernelIdeal
import proofs.«153718_j24240795419358_1_alg».proof.Proof.Gen.KernelIdeal.Skeleton
import proofs.«153718_j24240795419358_1_alg».proof.Proof.Gen.KernelIdeal.Launch
import proofs.«153718_j24240795419358_1_alg».proof.Proof.Gen.KernelIdeal.Points
import proofs.«153718_j24240795419358_1_alg».proof.Proof.Gen.KernelIdeal.Frame
import proofs.«153718_j24240795419358_1_alg».proof.Proof.Gen.ReferenceIdeal
import proofs.«153718_j24240795419358_1_alg».proof.Proof.Gen.Pre_finite_inputs
import proofs.«153718_j24240795419358_1_alg».proof.Proof.Gen.KernelIdeal.Value
import proofs.«153718_j24240795419358_1_alg».proof.Proof.Gen.ReferenceIdeal.Run
import proofs.«153718_j24240795419358_1_alg».proof.Proof.Gen.ReferenceIdeal.Read
import proofs.«153718_j24240795419358_1_alg».proof.Proof.KernelValue
import proofs.«153718_j24240795419358_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the specification of the (agreeing) argument arrays. -/
theorem algebraic : Cert.algebraic_KernelIdeal_ReferenceIdeal := by
  intro m ρ m' ρ' _ hagree
  refine ⟨_, Cert.ScaledRows.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ScaledRows.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
